-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2x16000x512 : Shape := ⟨4, ![8, 2, 16000, 512]⟩
abbrev S16x512 : Shape := ⟨2, ![16, 512]⟩
abbrev S_ : Shape := ⟨0, ![]⟩

class Facts : Prop where
  bcast_S_S8x2x16000x512 : S_.BroadcastsInDim S8x2x16000x512 (![] : Fin 0 → Fin S8x2x16000x512.rank)
  reducesTo_S8x2x16000x512_S_d0_1_2_3 : S8x2x16000x512.ReducesTo [0, 1, 2, 3] S_
  h_S_ : 0 < S_.numel
  bcast_S_S16x512 : S_.BroadcastsInDim S16x512 (![] : Fin 0 → Fin S16x512.rank)
  reducesTo_S16x512_S_d0_1 : S16x512.ReducesTo [0, 1] S_

variable [Facts]

def fn {F : FTy → Type} [FloatOps F] (main_arg0 : FVec F S8x2x16000x512 .f32) (main_arg1 : FVec F S16x512 .f32) : IVec S_ 1 :=
  let main_v0 : FVec F S8x2x16000x512 .f32 := Host.absf main_arg0
  let main_cst : FVec F S_ .f32 := constant S_ .f32 0x7F800000#32
  let main_v1 : FVec F S8x2x16000x512 .f32 := broadcastInDim S8x2x16000x512 ![] bcast_S_S8x2x16000x512 main_cst
  let main_v2 : IVec S8x2x16000x512 1 := cmpf .olt main_v0 main_v1
  let main_c : IVec S_ 1 := constantI S_ 1 1#1
  let main_v3 : IVec S_ 1 := (fun x v => Host.reduce IntOp.andi x v reducesTo_S8x2x16000x512_S_d0_1_2_3 h_S_) main_v2 main_c
  let main_v4 : FVec F S16x512 .f32 := Host.absf main_arg1
  let main_cst_0 : FVec F S_ .f32 := constant S_ .f32 0x7F800000#32
  let main_v5 : FVec F S16x512 .f32 := broadcastInDim S16x512 ![] bcast_S_S16x512 main_cst_0
  let main_v6 : IVec S16x512 1 := cmpf .olt main_v4 main_v5
  let main_c_1 : IVec S_ 1 := constantI S_ 1 1#1
  let main_v7 : IVec S_ 1 := (fun x v => Host.reduce IntOp.andi x v reducesTo_S16x512_S_d0_1 h_S_) main_v6 main_c_1
  let main_v8 : IVec S_ 1 := andi main_v3 main_v7
  main_v8
-- ==== Kernel.lean ====
abbrev S8x2x16000x512 : Shape := ⟨4, ![8, 2, 16000, 512]⟩
abbrev S16x512 : Shape := ⟨2, ![16, 512]⟩
abbrev S256000x512 : Shape := ⟨2, ![256000, 512]⟩
abbrev S256000x16 : Shape := ⟨2, ![256000, 16]⟩
abbrev S8000x512 : Shape := ⟨2, ![8000, 512]⟩
abbrev S8000x16 : Shape := ⟨2, ![8000, 16]⟩
abbrev S512x16 : Shape := ⟨2, ![512, 16]⟩
abbrev S8x2x16000x16 : Shape := ⟨4, ![8, 2, 16000, 16]⟩
abbrev S8x2x16000x8 : Shape := ⟨4, ![8, 2, 16000, 8]⟩
abbrev S_ : Shape := ⟨0, ![]⟩
abbrev S8x2x16001x8 : Shape := ⟨4, ![8, 2, 16001, 8]⟩
abbrev S1 : Shape := ⟨1, ![1]⟩
abbrev S8x2x128008 : Shape := ⟨3, ![8, 2, 128008]⟩

abbrev nBuf : Space → Nat
  | .hbm => 16
  | .vmem => 5
  | .smem => 0
  | _ => 0

abbrev bufTy : (tb : Table) → Fin (tcTables nBuf tb) → BufTy
  | .hbm, ⟨0, _⟩ => ⟨S8x2x16000x512, .f32⟩
  | .hbm, ⟨1, _⟩ => ⟨S16x512, .f32⟩
  | .hbm, ⟨2, _⟩ => ⟨S256000x512, .f32⟩
  | .hbm, ⟨3, _⟩ => ⟨S256000x16, .f32⟩
  | .hbm, ⟨4, _⟩ => ⟨S8x2x16000x16, .f32⟩
  | .hbm, ⟨5, _⟩ => ⟨S8x2x16000x8, .f32⟩
  | .hbm, ⟨6, _⟩ => ⟨S8x2x16000x8, .f32⟩
  | .hbm, ⟨7, _⟩ => ⟨S_, .f32⟩
  | .hbm, ⟨8, _⟩ => ⟨S8x2x16001x8, .f32⟩
  | .hbm, ⟨9, _⟩ => ⟨S_, .i32⟩
  | .hbm, ⟨10, _⟩ => ⟨S1, .i32⟩
  | .hbm, ⟨11, _⟩ => ⟨S8x2x16001x8, .f32⟩
  | .hbm, ⟨12, _⟩ => ⟨S_, .i32⟩
  | .hbm, ⟨13, _⟩ => ⟨S1, .i32⟩
  | .hbm, ⟨14, _⟩ => ⟨S8x2x16001x8, .f32⟩
  | .hbm, ⟨15, _⟩ => ⟨S8x2x128008, .f32⟩
  | .local _ .vmem, ⟨0, _⟩ => ⟨S8000x512, .f32⟩
  | .local _ .vmem, ⟨1, _⟩ => ⟨S8000x512, .f32⟩
  | .local _ .vmem, ⟨2, _⟩ => ⟨S16x512, .f32⟩
  | .local _ .vmem, ⟨3, _⟩ => ⟨S8000x16, .f32⟩
  | .local _ .vmem, ⟨4, _⟩ => ⟨S8000x16, .f32⟩
  | _, _ => ⟨S8x2x16000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_c_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8x2x16000x512_S256000x512 : S8x2x16000x512.ShapeCasts S256000x512
  inb_S8000x512_S8000x512_0_0 : ∀ a, (![0, 0] : Fin 2 → Nat) a + S8000x512.size a ≤ S8000x512.size a
  h_S8000x512 : 0 < S8000x512.numel
  shapeCasts_S8000x512_S8000x512 : S8000x512.ShapeCasts S8000x512
  inb_S16x512_S16x512_0_0 : ∀ a, (![0, 0] : Fin 2 → Nat) a + S16x512.size a ≤ S16x512.size a
  h_S16x512 : 0 < S16x512.numel
  transposes_S16x512_p1_0_S512x16 : S16x512.Transposes [1, 0] S512x16
  inb_S8000x16_S8000x16_0_0 : ∀ a, (![0, 0] : Fin 2 → Nat) a + S8000x16.size a ≤ S8000x16.size a
  h_S8000x16 : 0 < S8000x16.numel
  shapeCasts_S256000x16_S8x2x16000x16 : S256000x16.ShapeCasts S8x2x16000x16
  slices_S8x2x16000x16_S8x2x16000x8_0_0_0_0 : S8x2x16000x16.Slices ![0, 0, 0, 0] S8x2x16000x8
  slices_S8x2x16000x16_S8x2x16000x8_0_0_0_8 : S8x2x16000x16.Slices ![0, 0, 0, 8] S8x2x16000x8
  bcast_S_S8x2x16001x8 : S_.BroadcastsInDim S8x2x16001x8 (![] : Fin 0 → Fin S8x2x16001x8.rank)
  bcast_S_S1 : S_.BroadcastsInDim S1 (![] : Fin 0 → Fin S1.rank)
  shapeCasts_S8x2x16001x8_S8x2x128008 : S8x2x16001x8.ShapeCasts S8x2x128008
  dot_S8000x512_S512x16_S8000x16_1_0_0_1_n_n_wf : DotDims.WF S8000x512 S512x16 S8000x16 [1] [0] [0] [1] [] []
  scatter_S8x2x16001x8_S1_S8x2x16000x8_0123_n_2_0_wf : ScatterDims.WF S8x2x16001x8 S1 S8x2x16000x8 [0, 1, 2, 3] [] [2] 0
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x512.size a ≤ S256000x512.size a
  hwx0_0 : ∀ i : grid0.Coords, EltTy.bits .f32 = 32 ∨ (Rect.block (s := S256000x512) S8000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16x512.size a ≤ S16x512.size a
  hwx0_1 : ∀ i : grid0.Coords, EltTy.bits .f32 = 32 ∨ (Rect.block (s := S16x512) S16x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x16.size a ≤ S256000x16.size a
  hwx0_2 : ∀ i : grid0.Coords, EltTy.bits .f32 = 32 ∨ (Rect.block (s := S256000x16) S8000x16.size (cc0_transform_2 i) (hinb0_2 i)).WholeWords (EltTy.packing .f32)

variable [Facts₀]

def dot_S8000x512_S512x16_S8000x16_1_0_0_1_n_n : DotDims S8000x512 S512x16 S8000x16 where
  lhsContracting := [1]
  rhsContracting := [0]
  lhsNonContracting := [0]
  rhsNonContracting := [1]
  lhsBatch := []
  rhsBatch := []
  wf := dot_S8000x512_S512x16_S8000x16_1_0_0_1_n_n_wf
def scatter_S8x2x16001x8_S1_S8x2x16000x8_0123_n_2_0 : ScatterDims S8x2x16001x8 S1 S8x2x16000x8 where
  updateWindowDims := [0, 1, 2, 3]
  insertedWindowDims := []
  scatterDimsToOperandDims := [2]
  indexVectorDim := 0
  wf := scatter_S8x2x16001x8_S1_S8x2x16000x8_0123_n_2_0_wf

abbrev win0_0 : Pipeline.Window sig grid0 :=
  Pipeline.Window.ofSpec (Memref.whole main_v0) S8000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S8000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8x2x16000x512 : Shape := ⟨4, ![8, 2, 16000, 512]⟩
abbrev S16x512 : Shape := ⟨2, ![16, 512]⟩
abbrev S8x2x16000x16 : Shape := ⟨4, ![8, 2, 16000, 16]⟩
abbrev S16x32000x8 : Shape := ⟨3, ![16, 32000, 8]⟩
abbrev S16000 : Shape := ⟨1, ![16000]⟩
abbrev S16000x1 : Shape := ⟨2, ![16000, 1]⟩
abbrev S_ : Shape := ⟨0, ![]⟩
abbrev S2 : Shape := ⟨1, ![2]⟩
abbrev S1x2 : Shape := ⟨2, ![1, 2]⟩
abbrev S16000x2 : Shape := ⟨2, ![16000, 2]⟩
abbrev S32000 : Shape := ⟨1, ![32000]⟩
abbrev S16x16001x8 : Shape := ⟨3, ![16, 16001, 8]⟩
abbrev S32000x1 : Shape := ⟨2, ![32000, 1]⟩
abbrev S8x2x128008 : Shape := ⟨3, ![8, 2, 128008]⟩

abbrev nBuf : Space → Nat
  | .hbm => 27
  | .vmem => 0
  | .smem => 0
  | _ => 0

abbrev bufTy : (tb : Table) → Fin (tcTables nBuf tb) → BufTy
  | .hbm, ⟨0, _⟩ => ⟨S8x2x16000x512, .f32⟩
  | .hbm, ⟨1, _⟩ => ⟨S16x512, .f32⟩
  | .hbm, ⟨2, _⟩ => ⟨S8x2x16000x16, .f32⟩
  | .hbm, ⟨3, _⟩ => ⟨S16x32000x8, .f32⟩
  | .hbm, ⟨4, _⟩ => ⟨S16000, .i32⟩
  | .hbm, ⟨5, _⟩ => ⟨S16000x1, .i32⟩
  | .hbm, ⟨6, _⟩ => ⟨S_, .i32⟩
  | .hbm, ⟨7, _⟩ => ⟨S16000x1, .i32⟩
  | .hbm, ⟨8, _⟩ => ⟨S16000x1, .i32⟩
  | .hbm, ⟨9, _⟩ => ⟨S2, .i32⟩
  | .hbm, ⟨10, _⟩ => ⟨S1x2, .i32⟩
  | .hbm, ⟨11, _⟩ => ⟨S16000x2, .i32⟩
  | .hbm, ⟨12, _⟩ => ⟨S16000x2, .i32⟩
  | .hbm, ⟨13, _⟩ => ⟨S16000x2, .i32⟩
  | .hbm, ⟨14, _⟩ => ⟨S32000, .i32⟩
  | .hbm, ⟨15, _⟩ => ⟨S_, .f32⟩
  | .hbm, ⟨16, _⟩ => ⟨S16x16001x8, .f32⟩
  | .hbm, ⟨17, _⟩ => ⟨S_, .i32⟩
  | .hbm, ⟨18, _⟩ => ⟨S32000, .i32⟩
  | .hbm, ⟨19, _⟩ => ⟨S32000, .i1⟩
  | .hbm, ⟨20, _⟩ => ⟨S_, .i32⟩
  | .hbm, ⟨21, _⟩ => ⟨S32000, .i32⟩
  | .hbm, ⟨22, _⟩ => ⟨S32000, .i32⟩
  | .hbm, ⟨23, _⟩ => ⟨S32000, .i32⟩
  | .hbm, ⟨24, _⟩ => ⟨S32000x1, .i32⟩
  | .hbm, ⟨25, _⟩ => ⟨S16x16001x8, .f32⟩
  | .hbm, ⟨26, _⟩ => ⟨S8x2x128008, .f32⟩
  | _, _ => ⟨S8x2x16000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst : Ref sig .tc := ⟨.hbm, 15, rfl⟩
abbrev main_v12 : Ref sig .tc := ⟨.hbm, 16, rfl⟩
abbrev main_c_0 : Ref sig .tc := ⟨.hbm, 17, rfl⟩
abbrev main_v13 : Ref sig .tc := ⟨.hbm, 18, rfl⟩
abbrev main_v14 : Ref sig .tc := ⟨.hbm, 19, rfl⟩
abbrev main_c_1 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩

abbrev nD : Nat := 1
abbrev τ : Topo := Topo.v7x

variable {F : FTy → Type} [FloatOps F]

class Facts₀ : Prop where
  shapeCasts_S8x2x16000x16_S16x32000x8 : S8x2x16000x16.ShapeCasts S16x32000x8
  bcast_S16000_S16000x1_0 : S16000.BroadcastsInDim S16000x1 (![0] : Fin 1 → Fin S16000x1.rank)
  bcast_S_S16000x1 : S_.BroadcastsInDim S16000x1 (![] : Fin 0 → Fin S16000x1.rank)
  bcast_S2_S1x2_1 : S2.BroadcastsInDim S1x2 (![1] : Fin 1 → Fin S1x2.rank)
  bcast_S16000x1_S16000x2_0_1 : S16000x1.BroadcastsInDim S16000x2 (![0, 1] : Fin 2 → Fin S16000x2.rank)
  bcast_S1x2_S16000x2_0_1 : S1x2.BroadcastsInDim S16000x2 (![0, 1] : Fin 2 → Fin S16000x2.rank)
  shapeCasts_S16000x2_S32000 : S16000x2.ShapeCasts S32000
  bcast_S_S16x16001x8 : S_.BroadcastsInDim S16x16001x8 (![] : Fin 0 → Fin S16x16001x8.rank)
  bcast_S_S32000 : S_.BroadcastsInDim S32000 (![] : Fin 0 → Fin S32000.rank)
  bcast_S32000_S32000x1_0 : S32000.BroadcastsInDim S32000x1 (![0] : Fin 1 → Fin S32000x1.rank)
  shapeCasts_S16x16001x8_S8x2x128008 : S16x16001x8.ShapeCasts S8x2x128008
  dot_S8x2x16000x512_S16x512_S8x2x16000x16_3_1_012_0_n_n_wf : DotDims.WF S8x2x16000x512 S16x512 S8x2x16000x16 [3] [1] [0, 1, 2] [0] [] []
  scatter_S16x16001x8_S32000x1_S16x32000x8_02_1_1_1_wf : ScatterDims.WF S16x16001x8 S32000x1 S16x32000x8 [0, 2] [1] [1] 1

variable [Facts₀]

def dot_S8x2x16000x512_S16x512_S8x2x16000x16_3_1_012_0_n_n : DotDims S8x2x16000x512 S16x512 S8x2x16000x16 where
  lhsContracting := [3]
  rhsContracting := [1]
  lhsNonContracting := [0, 1, 2]
  rhsNonContracting := [0]
  lhsBatch := []
  rhsBatch := []
  wf := dot_S8x2x16000x512_S16x512_S8x2x16000x16_3_1_012_0_n_n_wf
def scatter_S16x16001x8_S32000x1_S16x32000x8_02_1_1_1 : ScatterDims S16x16001x8 S32000x1 S16x32000x8 where
  updateWindowDims := [0, 2]
  insertedWindowDims := [1]
  scatterDimsToOperandDims := [1]
  indexVectorDim := 1
  wf := scatter_S16x16001x8_S32000x1_S16x32000x8_02_1_1_1_wf

class Facts : Prop extends Facts₀ where

variable [Facts]
-- ==== Proof.LibMatmul.lean ====
/-
  A rows-by-columns product read at an entry (a general lemma: nothing here depends on a program).

  For the dimension numbers "contract the left operand's axis 1 with the right operand's axis 0, no batch axis" over
  operands [A, K] and [K, C], the contraction at entry (a, c), at the ideal values, is the sum over k < K of
  lhs[a, k] · rhs[k, c]; so is a matrix-unit product into a zero accumulator, and so is the host's dot_general.
-/
import Idealize.ShloMosaic.Lib.ValueIdx
import Idealize.ShloMosaic.PureOps.Ideal.Laws

noncomputable section

namespace Cert.Lib.Matmul

open Idealize.ShloMosaic Idealize.ShloMosaic.ValueIdx

variable {A K C : Nat}

/-- The left operand's index keeps the result's row. -/
theorem lhs0 (j : (⟨2, ![A, C]⟩ : Shape).Idx) (q : (DotDims.plain A K C).contr.Idx) :
    ((DotDims.plain A K C).lhsIdx j q 0).val = (j 0).val := by
  unfold DotDims.lhsIdx
  rw [dif_neg (show ¬(0 : Fin 2) ∈ (DotDims.plain A K C).lhsBatch from List.not_mem_nil),
    dif_pos (show (0 : Fin 2) ∈ (DotDims.plain A K C).lhsNonContracting from List.mem_singleton.mpr rfl)]
  rfl

/-- The left operand's column is the contraction coordinate. -/
theorem lhs1 (j : (⟨2, ![A, C]⟩ : Shape).Idx) (q : (DotDims.plain A K C).contr.Idx) :
    ((DotDims.plain A K C).lhsIdx j q 1).val = (q ⟨0, Nat.one_pos⟩).val :=
  (DotDims.plain A K C).lhsIdx_val_of_single rfl j q

/-- The right operand's row is the contraction coordinate. -/
theorem rhs0 (j : (⟨2, ![A, C]⟩ : Shape).Idx) (q : (DotDims.plain A K C).contr.Idx) :
    ((DotDims.plain A K C).rhsIdx j q 0).val = (q ⟨0, Nat.one_pos⟩).val :=
  (DotDims.plain A K C).rhsIdx_val_of_single rfl j q

/-- The right operand's index keeps the result's column. -/
theorem rhs1 (j : (⟨2, ![A, C]⟩ : Shape).Idx) (q : (DotDims.plain A K C).contr.Idx) :
    ((DotDims.plain A K C).rhsIdx j q 1).val = (j 1).val := by
  unfold DotDims.rhsIdx
  rw [dif_neg (show ¬(1 : Fin 2) ∈ (DotDims.plain A K C).rhsBatch from List.not_mem_nil),
    dif_pos (show (1 : Fin 2) ∈ (DotDims.plain A K C).rhsNonContracting from List.mem_singleton.mpr rfl)]
  rfl

/-- The contraction at entry (a, c) is the sum over the K products lhs[a, k] · rhs[k, c]. -/
theorem contr_sum (lhs : (⟨2, ![A, K]⟩ : Shape).Idx → EReal) (rhs : (⟨2, ![K, C]⟩ : Shape).Idx → EReal)
    (a : Fin A) (c : Fin C) :
    ∑ q : (DotDims.plain A K C).contr.Idx,
        lhs ((DotDims.plain A K C).lhsIdx (ix2 a c) q) * rhs ((DotDims.plain A K C).rhsIdx (ix2 a c) q)
      = ∑ k : Fin K, lhs (ix2 a k) * rhs (ix2 k c) := by
  rw [← Equiv.sum_comp (contrEquiv1 (DotDims.plain A K C) K rfl rfl).symm]
  refine Finset.sum_congr rfl fun k _ => ?_
  have hk := contrEquiv1_symm_val (DotDims.plain A K C) K rfl rfl k
  have el : (DotDims.plain A K C).lhsIdx (ix2 a c) ((contrEquiv1 (DotDims.plain A K C) K rfl rfl).symm k)
      = ix2 a k := funext fun x => Fin.ext (by
    match x with
    | ⟨0, _⟩ => exact lhs0 _ _
    | ⟨1, _⟩ => exact (lhs1 _ _).trans hk)
  have er : (DotDims.plain A K C).rhsIdx (ix2 a c) ((contrEquiv1 (DotDims.plain A K C) K rfl rfl).symm k)
      = ix2 k c := funext fun x => Fin.ext (by
    match x with
    | ⟨0, _⟩ => exact (rhs0 _ _).trans hk
    | ⟨1, _⟩ => exact rhs1 _ _)
  rw [el, er]

/-- A matrix-unit product into a zero accumulator, at entry (a, c). -/
theorem matmul_zero_apply {φ₁ φ₂ : FTy} (prec : Option ContractPrecision)
    (lhs : FVec Ideal ⟨2, ![A, K]⟩ φ₁) (rhs : FVec Ideal ⟨2, ![K, C]⟩ φ₂) (a : Fin A) (c : Fin C) :
    FloatOps.matmul (DotDims.plain A K C) prec lhs rhs (constant ⟨2, ![A, C]⟩ .f32 0x00000000#32) (ix2 a c)
      = ∑ k : Fin K, (lhs (ix2 a k) : EReal) * (rhs (ix2 k c) : EReal) := by
  rw [Ideal.matmul_constant_zero_apply]
  exact contr_sum lhs rhs a c

/-- The host's dot_general, at entry (a, c). -/
theorem dotGeneral_apply {φ₁ φ₂ : FTy} (prec : Option ContractPrecision) (sched : HostSchedule)
    (lhs : FVec Ideal ⟨2, ![A, K]⟩ φ₁) (rhs : FVec Ideal ⟨2, ![K, C]⟩ φ₂) (a : Fin A) (c : Fin C) :
    FloatOps.dotGeneral (DotDims.plain A K C) prec sched lhs rhs (ix2 a c)
      = ∑ k : Fin K, (lhs (ix2 a k) : EReal) * (rhs (ix2 k c) : EReal) := by
  rw [Ideal.dotGeneral_apply]
  exact contr_sum lhs rhs a c

end Cert.Lib.Matmul

end
-- ==== Proof.KernelProduct.lean ====
import proofs.«144685_j52664888983802_1_alg».proof.Proof.Gen.KernelIdeal.Frame
import proofs.«144685_j52664888983802_1_alg».proof.Proof.LibMatmul
import Idealize.ShloMosaic.Lib.Pipeline.Value
import Idealize.ShloMosaic.Lib.ValueIdx
import Idealize.ShloMosaic.PureOps.Ideal.Laws

noncomputable section

namespace Cert.OverlapAdd.KernelProduct

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The flattened signal as the region finds it, and the basis. -/
abbrev rowsArr (c : Dev nD) : S256000x512.Idx → EReal := V m c main_v0
abbrev basisArr (c : Dev nD) : S16x512.Idx → EReal := V m c main_arg1

/-! ## One block's product, entry by entry -/

/-- The offsets (0, 0) are the zero offsets. -/
theorem offsets_zero : (![0, 0] : Fin 2 → Nat) = fun _ => 0 := funext fun a => by fin_cases a <;> rfl

/-- The transposed basis block at (k, q) is the basis block at (q, k). -/
theorem basisT_apply (v : Vec Ideal S16x512 .f32) (k : Fin 512) (q : Fin 16) :
    transpose S512x16 [1, 0] v transposes_S16x512_p1_0_S512x16 (ix2 k q) = v (ix2 q k) := by
  refine transpose_apply _ v _ (ix2 k q) (ix2 q k) (fun b => ?_)
  match b with
  | ⟨0, _⟩ => rfl
  | ⟨1, _⟩ => rfl

/-- What the body stores, at entry (p, q): the rows block [8000, 512] times the transposed basis block [16, 512]ᵀ
    into a zero accumulator, that is the sum over k of rows[p, k] · basis[q, k]. -/
theorem payload_apply (x0 : Vec Ideal S8000x512 .f32) (x1 : Vec Ideal S16x512 .f32) (p : Fin 8000) (q : Fin 16) :
    k0_pay1 x0 x1 (ix2 p q) = ∑ k : Fin 512, x0 (ix2 p k) * x1 (ix2 q k) := by
  unfold k0_pay1
  rw [shapeCast_self]
  refine (Cert.Lib.Matmul.matmul_zero_apply (A := 8000) (K := 512) (C := 16) none x0
    (transpose S512x16 [1, 0] x1 transposes_S16x512_p1_0_S512x16) p q).trans ?_
  refine Finset.sum_congr rfl fun k _ => ?_
  rw [basisT_apply]

/-! ## From blocks to the array -/

/-- Rows times the transposed basis, as one function of the two whole arrays: entry (r, q) is the sum over k of
    A[r, k] · B[q, k]. -/
abbrev rowsTimesBasis (A : S256000x512.Idx → EReal) (B : S16x512.Idx → EReal) : S256000x16.Idx → EReal :=
  fun i => ∑ k : Fin 512, A (ix2 (i 0) k) * B (ix2 (i 1) k)

/-- The three index maps over the 32 grid points: point t takes block (t, 0) of the flattened signal, block (0, 0) of
    the basis (all of it), and writes block (t, 0) of the product array. -/
theorem index_maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The signal's block at point t, at local (p, k), is the flattened signal at (8000·t + p, k). -/
theorem rows_block_apply (c : Dev nD) (t : Fin cfg0.N) (x : S8000x512.Idx) (i : S256000x512.Idx)
    (h0 : (i 0).val = 8000 * t.val + (x 0).val) (h1 : (i 1).val = (x 1).val) :
    (iblk m c 0 t : Vec Ideal S8000x512 .f32) x = rowsArr m c i := by
  obtain ⟨e0, e1, -⟩ := index_maps t
  unfold iblk
  rw [View.read_apply]
  show rowsArr m c _ = rowsArr m c i
  refine congrArg (rowsArr m c) (funext fun a => Fin.ext ?_)
  match a with
  | ⟨0, _⟩ => show win0_0.index t (0 : Fin 2) * 8000 + 1 * (x 0).val = (i 0).val; omega
  | ⟨1, _⟩ => show win0_0.index t (1 : Fin 2) * 512 + 1 * (x 1).val = (i 1).val; omega

/-- The basis's block at every point is the whole basis. -/
theorem basis_block_apply (c : Dev nD) (t : Fin cfg0.N) (x : S16x512.Idx) :
    (iblk m c 1 t : Vec Ideal S16x512 .f32) x = basisArr m c x := by
  obtain ⟨-, -, e0, e1, -⟩ := index_maps t
  unfold iblk
  rw [View.read_apply]
  show basisArr m c _ = basisArr m c x
  refine congrArg (basisArr m c) (funext fun a => Fin.ext ?_)
  match a with
  | ⟨0, _⟩ => show win0_1.index t (0 : Fin 2) * 16 + 1 * (x 0).val = (x 0).val; omega
  | ⟨1, _⟩ => show win0_1.index t (1 : Fin 2) * 512 + 1 * (x 1).val = (x 1).val; omega

/-- Point t's block of products at local (p, q) is the whole product at an index i with row 8000·t + p and column q. -/
theorem block_entry (c : Dev nD) (t : Fin cfg0.N) (p : Fin 8000) (q : Fin 16) (i : S256000x16.Idx)
    (h0 : (i 0).val = 8000 * t.val + p.val) (h1 : (i 1).val = q.val) :
    k0_pay1 (iblk m c 0 t) (iblk m c 1 t) (ix2 p q) = rowsTimesBasis (rowsArr m c) (basisArr m c) i := by
  refine (payload_apply _ _ p q).trans ?_
  show ∑ k : Fin 512, _ = ∑ k : Fin 512, _
  refine Finset.sum_congr rfl fun k _ => ?_
  have e : (ix2 q k : S16x512.Idx) = ix2 (i 1) k := funext fun a => Fin.ext (by
    match a with
    | ⟨0, _⟩ => exact h1.symm
    | ⟨1, _⟩ => rfl)
  exact congrArg₂ (· * ·) (rows_block_apply m c t (ix2 p k) (ix2 (i 0) k) h0 rfl)
    ((basis_block_apply m c t (ix2 q k)).trans (congrArg (basisArr m c) e))

/-- The same at any local index j of the block. -/
theorem block_entry_at (c : Dev nD) (t : Fin cfg0.N) (j : S8000x16.Idx) (i : S256000x16.Idx)
    (h0 : (i 0).val = 8000 * t.val + (j 0).val) (h1 : (i 1).val = (j 1).val) :
    k0_pay1 (iblk m c 0 t) (iblk m c 1 t) j = rowsTimesBasis (rowsArr m c) (basisArr m c) i := by
  obtain ⟨p, q, rfl⟩ : ∃ (p : Fin 8000) (q : Fin 16), j = ix2 p q := ⟨j 0, j 1, eq_ix2 j⟩
  exact block_entry m c t p q i h0 h1

/-- What point t writes back is block t of the whole product: local row p of the block is row 8000·t + p. -/
theorem flushed_block (c : Dev nD) (t : Fin cfg0.N) :
    (dats m 0 c).flushed 2 t
      = ((cfg0.win 2).blk t).view.read (Elt Ideal) (rowsTimesBasis (rowsArr m c) (basisArr m c)) := by
  show (cfg0.win 2).cut (grid0.coords t) ((dats m 0 c).after 2 t) = _
  rw [after0_2]
  unfold out0_2
  rw [View.canon_unit_zero offsets_zero]
  simp only [View.ld_unit_zero (S := S8000x512) offsets_zero, View.ld_unit_zero (S := S16x512) offsets_zero]
  obtain ⟨-, -, -, -, e0, e1⟩ := index_maps t
  funext j
  show k0_pay1 (iblk m c 0 t) (iblk m c 1 t) ((cfg0.win 2).xinj (grid0.coords t) j)
    = rowsTimesBasis (rowsArr m c) (basisArr m c) (((cfg0.win 2).blk t).view.emb j)
  refine block_entry_at m c t _ _ ?_ ?_
  · show win0_2.index t (0 : Fin 2) * 8000 + 1 * (j 0).val = 8000 * t.val + (j 0).val
    omega
  · show win0_2.index t (1 : Fin 2) * 16 + 1 * (j 1).val = (j 1).val
    omega

/-- An index of the product array is in point t's block iff each coordinate is in the block's range on its axis. -/
theorem mem_product_block (t : Fin cfg0.N) (i : S256000x16.Idx) :
    i ∈ ((cfg0.win 2).blk t).view.set ↔ ∀ a : Fin 2, win0_2.index t a * S8000x16.size a ≤ (i a).val
      ∧ (i a).val < win0_2.index t a * S8000x16.size a + S8000x16.size a := by
  show i ∈ ((View.whole main_v1).slice (win0_2.rect t)).set ↔ _
  rw [View.set_slice_whole, Rect.mem_set_unit]
  exact Iff.rfl

/-- The 32 blocks of 8000 rows tile the 256000 rows: row r lies in the block of point r / 8000, which writes back. -/
theorem rows_covered (i : S256000x16.Idx) :
    ∃ t : Fin cfg0.N, (cfg0.win 2).flush t = true ∧ i ∈ ((cfg0.win 2).blk t).view.set := by
  have hi0 : (i 0).val < 256000 := idx2_lt0 i
  have hi1 : (i 1).val < 16 := idx2_lt1 i
  have hN : cfg0.N = 32 := N_0
  let t : Fin cfg0.N := ⟨(i 0).val / 8000, by rw [hN]; omega⟩
  have ht : t.val = (i 0).val / 8000 := rfl
  obtain ⟨-, -, -, -, e0, e1⟩ := index_maps t
  refine ⟨t, flush0_2 t, ?_⟩
  rw [mem_product_block]
  intro a
  match a with
  | ⟨0, _⟩ =>
    show win0_2.index t (0 : Fin 2) * 8000 ≤ (i 0).val ∧ (i 0).val < win0_2.index t (0 : Fin 2) * 8000 + 8000
    omega
  | ⟨1, _⟩ =>
    show win0_2.index t (1 : Fin 2) * 16 ≤ (i 1).val ∧ (i 1).val < win0_2.index t (1 : Fin 2) * 16 + 16
    omega

/-- After the region, the product array holds at (r, q) the sum over k of row r of the flattened signal times basis
    row q: the 32 blocks of 8000 rows tile the 256000 rows, and each block is the product of its rows. -/
theorem product_array (c : Dev nD) :
    ((dats m 0 c).arrAt 2 cfg0.N : S256000x16.Idx → EReal)
      = fun i => ∑ k : Fin 512, rowsArr m c (ix2 (i 0) k) * basisArr m c (ix2 (i 1) k) :=
  (dats m 0 c).arrAt_eq_of_cover 2 (rowsTimesBasis (rowsArr m c) (basisArr m c))
    (fun t _ => flushed_block m c t) rows_covered

end Cert.OverlapAdd.KernelProduct

end
-- ==== Proof.Spec.lean ====
/-
  Overlap-and-add of projected frames, stated once over the argument arrays.

  A signal of 16000 frames per (batch, channel) pair is projected frame by frame onto 16 basis rows:
  frame n gives the 16 numbers  e(n, q) = Σ_k x(n, k) · w(q, k).  Each frame is then cut into a first half
  (q < 8) and a second half (q ≥ 8), and the halves of neighbouring frames are added with a hop of one
  half: output slot n (0 ≤ n ≤ 16000) holds, at h < 8,
        e(n, h)  (when n < 16000)   +   e(n − 1, 8 + h)  (when n ≥ 1).
  The 16001 slots of 8 numbers are finally read as one row of 128008 numbers.
-/
import Idealize.ShloMosaic.PureOps.Ideal
import Idealize.ShloMosaic.Lib.ValueIdx

noncomputable section

namespace Cert.OverlapAdd

open Idealize.ShloMosaic Idealize.ShloMosaic.ValueIdx

/-- The signal: batch × channel × frame × sample. -/
abbrev SX : Shape := ⟨4, ![8, 2, 16000, 512]⟩
/-- The basis: one row of 512 weights per output coordinate. -/
abbrev SW : Shape := ⟨2, ![16, 512]⟩
/-- The projected frames. -/
abbrev SFr : Shape := ⟨4, ![8, 2, 16000, 16]⟩
/-- The output slots, before they are read as one row. -/
abbrev SSlot : Shape := ⟨4, ![8, 2, 16001, 8]⟩
/-- The result. -/
abbrev SOut : Shape := ⟨3, ![8, 2, 128008]⟩

/-- Frame (b, c, n) projected on basis row q. -/
def frames (x : SX.Idx → EReal) (w : SW.Idx → EReal) : SFr.Idx → EReal :=
  fun i => ∑ k : Fin 512, x (ix4 (i 0) (i 1) (i 2) k) * w (ix2 (i 3) k)

/-- An array of frames read at natural-number frame and coordinate, zero outside the array. -/
def at4 (e : SFr.Idx → EReal) (b : Fin 8) (c : Fin 2) (n q : ℕ) : EReal :=
  if h : n < 16000 ∧ q < 16 then e (ix4 b c ⟨n, h.1⟩ ⟨q, h.2⟩) else 0

/-- Inside the array, `at4` is the entry, whichever way its index is written. -/
theorem at4_eq (e : SFr.Idx → EReal) (b : Fin 8) (c : Fin 2) (n q : ℕ) (j : SFr.Idx)
    (h0 : j 0 = b) (h1 : j 1 = c) (h2 : (j 2).val = n) (h3 : (j 3).val = q) : at4 e b c n q = e j := by
  have hn : n < 16000 := h2 ▸ (j 2).isLt
  have hq : q < 16 := h3 ▸ (j 3).isLt
  unfold at4
  rw [dif_pos ⟨hn, hq⟩]
  refine congrArg e ?_
  subst h0 h1
  rw [eq_ix4 j]
  refine congrArg₂ (fun (u : Fin 16000) (v : Fin 16) => ix4 (j 0) (j 1) u v) (Fin.ext h2.symm) (Fin.ext h3.symm)

/-- Past the last frame there is nothing. -/
theorem at4_of_ge (e : SFr.Idx → EReal) (b : Fin 8) (c : Fin 2) (n q : ℕ) (h : 16000 ≤ n) : at4 e b c n q = 0 := by
  unfold at4
  rw [dif_neg (fun hh => absurd hh.1 (Nat.not_lt.2 h))]

/-- Slot (b, c, n, h): the first half of frame n plus the second half of frame n − 1. -/
def overlap (e : SFr.Idx → EReal) : SSlot.Idx → EReal := fun i =>
  at4 e (i 0) (i 1) (i 2).val (i 3).val
    + (if 1 ≤ (i 2).val then at4 e (i 0) (i 1) ((i 2).val - 1) (8 + (i 3).val) else 0)

/-- The result array: position p of row (b, c) is slot p / 8 at p % 8. -/
def result (x : SX.Idx → EReal) (w : SW.Idx → EReal) : SOut.Idx → EReal := fun i =>
  overlap (frames x w) (ix4 (i 0) (i 1)
    ⟨(i 2).val / 8, by have h : (i 2).val < 128008 := (i 2).isLt; show (i 2).val / 8 < 16001; omega⟩
    ⟨(i 2).val % 8, Nat.mod_lt _ (by decide)⟩)

end Cert.OverlapAdd

end
-- ==== Proof.LibScatterOnce.lean ====
/-
  A scatter read at one element.

  The host's scatter is a left fold over the update positions in row-major order: the step for update position j
  replaces the element that j lands on (start index plus window coordinate, when inside the operand) by the body
  applied to that element and the update's, and leaves every other element alone.  Read at ONE element i this fold
  is easy to follow: steps whose position does not land on i do not change the value at i.  Hence
    * an element no update position lands on keeps the operand's value, and
    * an element exactly one update position j0 lands on holds  f (x i) (upd j0).
  Both hold for every shape, element type, body and dimension numbers.  "Position j lands on i" is the equation
  start + window coordinate = coordinate of i, axis by axis, over the integers.
-/
import Idealize.ShloMosaic.PureOps.ShapeOps

namespace Cert.Lib.ScatterOnce

open Idealize.ShloMosaic

variable {s si u : Shape} {α : Type} {w : Nat}

/-- An update position lands on i as soon as start plus window coordinate is i's coordinate on every axis. -/
theorem resultIdx?_eq_some (d : ScatterDims s si u) (j : u.Idx) (idx : IVec si w) (i : s.Idx)
    (h : ∀ a, d.start j idx a + (d.window j a : Int) = ((i a).val : Int)) : d.resultIdx? j idx = some i := by
  unfold ScatterDims.resultIdx?
  have hin : ∀ a, 0 ≤ d.start j idx a + d.window j a ∧ d.start j idx a + d.window j a < s.size a := fun a => by
    have := h a
    have hlt : (i a).val < s.size a := (i a).isLt
    omega
  rw [dif_pos hin]
  refine congrArg some (funext fun a => Fin.ext ?_)
  have := h a
  show (d.start j idx a + d.window j a).toNat = (i a).val
  omega

/-- If an update position lands on i, then start plus window coordinate is i's coordinate on every axis. -/
theorem add_eq_of_resultIdx?_eq_some (d : ScatterDims s si u) (j : u.Idx) (idx : IVec si w) (i : s.Idx)
    (h : d.resultIdx? j idx = some i) (a : Fin s.rank) :
    d.start j idx a + (d.window j a : Int) = ((i a).val : Int) := by
  unfold ScatterDims.resultIdx? at h
  by_cases hin : ∀ a, 0 ≤ d.start j idx a + d.window j a ∧ d.start j idx a + d.window j a < s.size a
  · rw [dif_pos hin] at h
    have hi := Option.some.inj h
    have ha : (d.start j idx a + d.window j a).toNat = (i a).val := by rw [← hi]
    have := hin a
    omega
  · rw [dif_neg hin] at h
    cases h

/-- One step of the scatter's fold: update position n (a row-major number) rewrites the element it lands on. -/
def step (d : ScatterDims s si u) (f : α → α → α) (idx : IVec si w) (upd : u.Idx → α)
    (r : s.Idx → α) (n : Fin u.numel) : s.Idx → α :=
  match d.resultIdx? (u.rowMajor.symm n) idx with
  | some i => fun i' => if i' = i then f (r i) (upd (u.rowMajor.symm n)) else r i'
  | none => r

/-- The scatter is the fold of the step over all update positions. -/
theorem scatter_eq_foldl (d : ScatterDims s si u) (f : α → α → α) (x : s.Idx → α) (idx : IVec si w)
    (upd : u.Idx → α) :
    Host.scatter d f x idx upd = (List.finRange u.numel).foldl (step d f idx upd) x := rfl

/-- A step whose position does not land on i leaves the value at i. -/
theorem step_of_ne (d : ScatterDims s si u) (f : α → α → α) (idx : IVec si w) (upd : u.Idx → α)
    (r : s.Idx → α) (n : Fin u.numel) (i : s.Idx)
    (h : d.resultIdx? (u.rowMajor.symm n) idx ≠ some i) : step d f idx upd r n i = r i := by
  unfold step
  generalize d.resultIdx? (u.rowMajor.symm n) idx = o at h ⊢
  cases o with
  | none => rfl
  | some j => exact if_neg (fun e => h (by rw [e]))

/-- A step whose position lands on i applies the body there. -/
theorem step_of_eq (d : ScatterDims s si u) (f : α → α → α) (idx : IVec si w) (upd : u.Idx → α)
    (r : s.Idx → α) (n : Fin u.numel) (i : s.Idx)
    (h : d.resultIdx? (u.rowMajor.symm n) idx = some i) :
    step d f idx upd r n i = f (r i) (upd (u.rowMajor.symm n)) := by
  unfold step
  rw [h]
  exact if_pos rfl

/-- Folding steps none of which lands on i leaves the value at i, whatever the list of positions. -/
theorem foldl_of_not_hit (d : ScatterDims s si u) (f : α → α → α) (idx : IVec si w) (upd : u.Idx → α)
    (i : s.Idx) (l : List (Fin u.numel)) (r : s.Idx → α)
    (h : ∀ n ∈ l, d.resultIdx? (u.rowMajor.symm n) idx ≠ some i) :
    l.foldl (step d f idx upd) r i = r i := by
  induction l generalizing r with
  | nil => rfl
  | cons n l ih =>
    rw [List.foldl_cons, ih _ (fun m hm => h m (List.mem_cons_of_mem _ hm))]
    exact step_of_ne d f idx upd r n i (h n List.mem_cons_self)

/-- Folding steps over a list without repetition in which exactly the position n0 lands on i applies the body
    once at i. -/
theorem foldl_of_hit_once (d : ScatterDims s si u) (f : α → α → α) (idx : IVec si w) (upd : u.Idx → α)
    (i : s.Idx) (n0 : Fin u.numel) (h0 : d.resultIdx? (u.rowMajor.symm n0) idx = some i)
    (l : List (Fin u.numel)) (hl : l.Nodup) (hmem : n0 ∈ l)
    (huniq : ∀ n ∈ l, d.resultIdx? (u.rowMajor.symm n) idx = some i → n = n0) (r : s.Idx → α) :
    l.foldl (step d f idx upd) r i = f (r i) (upd (u.rowMajor.symm n0)) := by
  induction l generalizing r with
  | nil => cases hmem
  | cons n l ih =>
    rw [List.foldl_cons]
    have hnd := List.nodup_cons.1 hl
    by_cases hn : n = n0
    · subst hn
      rw [foldl_of_not_hit d f idx upd i l _ (fun m hm hmi =>
        hnd.1 ((huniq m (List.mem_cons_of_mem _ hm) hmi) ▸ hm))]
      exact step_of_eq d f idx upd r n i h0
    · have hmem' : n0 ∈ l := by
        rcases List.mem_cons.1 hmem with e | e
        · exact absurd e.symm hn
        · exact e
      rw [ih hnd.2 hmem' (fun m hm => huniq m (List.mem_cons_of_mem _ hm))]
      rw [step_of_ne d f idx upd r n i (fun e => hn (huniq n List.mem_cons_self e))]

/-- An element of the operand that no update position lands on is unchanged by the scatter. -/
theorem scatter_apply_of_not_hit (d : ScatterDims s si u) (f : α → α → α) (x : s.Idx → α) (idx : IVec si w)
    (upd : u.Idx → α) (i : s.Idx) (h : ∀ j : u.Idx, d.resultIdx? j idx ≠ some i) :
    Host.scatter d f x idx upd i = x i := by
  rw [scatter_eq_foldl]
  exact foldl_of_not_hit d f idx upd i _ x (fun n _ => h _)

/-- An element of the operand that exactly one update position j0 lands on holds the body applied to the
    operand's element and that update's. -/
theorem scatter_apply_of_hit_once (d : ScatterDims s si u) (f : α → α → α) (x : s.Idx → α) (idx : IVec si w)
    (upd : u.Idx → α) (i : s.Idx) (j0 : u.Idx) (h0 : d.resultIdx? j0 idx = some i)
    (huniq : ∀ j : u.Idx, d.resultIdx? j idx = some i → j = j0) :
    Host.scatter d f x idx upd i = f (x i) (upd j0) := by
  rw [scatter_eq_foldl]
  have e0 : u.rowMajor.symm (u.rowMajor j0) = j0 := u.rowMajor.symm_apply_apply j0
  have := foldl_of_hit_once d f idx upd i (u.rowMajor j0) (by rw [e0]; exact h0) (List.finRange u.numel)
    (List.nodup_finRange _) (List.mem_finRange _)
    (fun n _ hn => by
      have hj := huniq _ hn
      rw [← hj]; exact (u.rowMajor.apply_symm_apply n).symm) x
  rw [e0] at this
  exact this

end Cert.Lib.ScatterOnce
-- ==== Proof.KernelScatter.lean ====
import proofs.«144685_j52664888983802_1_alg».proof.Proof.Gen.KernelIdeal
import proofs.«144685_j52664888983802_1_alg».proof.Proof.Spec
import proofs.«144685_j52664888983802_1_alg».proof.Proof.LibScatterOnce
import Idealize.ShloMosaic.PureOps.Ideal.Laws
import Idealize.ShloMosaic.Lib.ValueIdx

noncomputable section

namespace Cert.OverlapAdd.KernelTail

open Idealize.ShloMosaic Idealize.ShloMosaic.ValueIdx Cert.KernelIdeal Cert.KernelIdeal.Facts₀ Cert.OverlapAdd
open Cert.Lib.ScatterOnce

/-! ### The window scatter's dimension numbers, axis by axis

The scatter has one scatter index, a vector of length one that names a start on axis 2; the update window is the
whole update array, its four axes going to the operand's four axes in order.  So the start is 0 on axes 0, 1, 3 and
the scatter index's entry on axis 2, and the window coordinate is the update position's own coordinate. -/

theorem start_0 {w : Nat} (j : S8x2x16000x8.Idx) (idx : IVec S1 w) :
    scatter_S8x2x16001x8_S1_S8x2x16000x8_0123_n_2_0.start j idx 0 = 0 := by
  unfold ScatterDims.start
  rw [dif_neg (show ¬(0 : Fin S8x2x16001x8.rank) ∈ scatter_S8x2x16001x8_S1_S8x2x16000x8_0123_n_2_0.scatterDimsToOperandDims by decide)]

theorem start_1 {w : Nat} (j : S8x2x16000x8.Idx) (idx : IVec S1 w) :
    scatter_S8x2x16001x8_S1_S8x2x16000x8_0123_n_2_0.start j idx 1 = 0 := by
  unfold ScatterDims.start
  rw [dif_neg (show ¬(1 : Fin S8x2x16001x8.rank) ∈ scatter_S8x2x16001x8_S1_S8x2x16000x8_0123_n_2_0.scatterDimsToOperandDims by decide)]

theorem start_2 {w : Nat} (j : S8x2x16000x8.Idx) (idx : IVec S1 w) (o : ℤ) (hidx : ∀ k, (idx k).toInt = o) :
    scatter_S8x2x16001x8_S1_S8x2x16000x8_0123_n_2_0.start j idx 2 = o := by
  unfold ScatterDims.start
  rw [dif_pos (show (2 : Fin S8x2x16001x8.rank) ∈ scatter_S8x2x16001x8_S1_S8x2x16000x8_0123_n_2_0.scatterDimsToOperandDims by decide)]
  exact hidx _

theorem start_3 {w : Nat} (j : S8x2x16000x8.Idx) (idx : IVec S1 w) :
    scatter_S8x2x16001x8_S1_S8x2x16000x8_0123_n_2_0.start j idx 3 = 0 := by
  unfold ScatterDims.start
  rw [dif_neg (show ¬(3 : Fin S8x2x16001x8.rank) ∈ scatter_S8x2x16001x8_S1_S8x2x16000x8_0123_n_2_0.scatterDimsToOperandDims by decide)]

theorem window_0 (j : S8x2x16000x8.Idx) :
    scatter_S8x2x16001x8_S1_S8x2x16000x8_0123_n_2_0.window j 0 = (j 0).val := by
  unfold ScatterDims.window
  rw [dif_pos (show (0 : Fin S8x2x16001x8.rank) ∈ scatter_S8x2x16001x8_S1_S8x2x16000x8_0123_n_2_0.sKept by decide)]
  rfl

theorem window_1 (j : S8x2x16000x8.Idx) :
    scatter_S8x2x16001x8_S1_S8x2x16000x8_0123_n_2_0.window j 1 = (j 1).val := by
  unfold ScatterDims.window
  rw [dif_pos (show (1 : Fin S8x2x16001x8.rank) ∈ scatter_S8x2x16001x8_S1_S8x2x16000x8_0123_n_2_0.sKept by decide)]
  rfl

theorem window_2 (j : S8x2x16000x8.Idx) :
    scatter_S8x2x16001x8_S1_S8x2x16000x8_0123_n_2_0.window j 2 = (j 2).val := by
  unfold ScatterDims.window
  rw [dif_pos (show (2 : Fin S8x2x16001x8.rank) ∈ scatter_S8x2x16001x8_S1_S8x2x16000x8_0123_n_2_0.sKept by decide)]
  rfl

theorem window_3 (j : S8x2x16000x8.Idx) :
    scatter_S8x2x16001x8_S1_S8x2x16000x8_0123_n_2_0.window j 3 = (j 3).val := by
  unfold ScatterDims.window
  rw [dif_pos (show (3 : Fin S8x2x16001x8.rank) ∈ scatter_S8x2x16001x8_S1_S8x2x16000x8_0123_n_2_0.sKept by decide)]
  rfl

/-- Update position j lands on element i exactly when they agree on axes 0, 1, 3 and i's slot is j's frame shifted by
    the start o. -/
theorem lands_iff {w : Nat} (idx : IVec S1 w) (o : ℕ) (hidx : ∀ k, (idx k).toInt = (o : ℤ))
    (j : S8x2x16000x8.Idx) (i : S8x2x16001x8.Idx) :
    scatter_S8x2x16001x8_S1_S8x2x16000x8_0123_n_2_0.resultIdx? j idx = some i ↔
      (j 0).val = (i 0).val ∧ (j 1).val = (i 1).val ∧ o + (j 2).val = (i 2).val ∧ (j 3).val = (i 3).val := by
  constructor
  · intro h
    have e0 := add_eq_of_resultIdx?_eq_some _ j idx i h 0
    have e1 := add_eq_of_resultIdx?_eq_some _ j idx i h 1
    have e2 := add_eq_of_resultIdx?_eq_some _ j idx i h 2
    have e3 := add_eq_of_resultIdx?_eq_some _ j idx i h 3
    rw [start_0, window_0] at e0
    rw [start_1, window_1] at e1
    rw [start_2 j idx o hidx, window_2] at e2
    rw [start_3, window_3] at e3
    refine ⟨?_, ?_, ?_, ?_⟩ <;> omega
  · intro h
    refine resultIdx?_eq_some _ j idx i fun a => ?_
    match a with
    | ⟨0, _⟩ =>
      have e : scatter_S8x2x16001x8_S1_S8x2x16000x8_0123_n_2_0.start j idx 0
          + ((scatter_S8x2x16001x8_S1_S8x2x16000x8_0123_n_2_0.window j 0 : ℕ) : ℤ) = (((i 0).val : ℕ) : ℤ) := by
        rw [start_0, window_0]; have := h.1; omega
      exact e
    | ⟨1, _⟩ =>
      have e : scatter_S8x2x16001x8_S1_S8x2x16000x8_0123_n_2_0.start j idx 1
          + ((scatter_S8x2x16001x8_S1_S8x2x16000x8_0123_n_2_0.window j 1 : ℕ) : ℤ) = (((i 1).val : ℕ) : ℤ) := by
        rw [start_1, window_1]; have := h.2.1; omega
      exact e
    | ⟨2, _⟩ =>
      have e : scatter_S8x2x16001x8_S1_S8x2x16000x8_0123_n_2_0.start j idx 2
          + ((scatter_S8x2x16001x8_S1_S8x2x16000x8_0123_n_2_0.window j 2 : ℕ) : ℤ) = (((i 2).val : ℕ) : ℤ) := by
        rw [start_2 j idx o hidx, window_2]; have := h.2.2.1; omega
      exact e
    | ⟨3, _⟩ =>
      have e : scatter_S8x2x16001x8_S1_S8x2x16000x8_0123_n_2_0.start j idx 3
          + ((scatter_S8x2x16001x8_S1_S8x2x16000x8_0123_n_2_0.window j 3 : ℕ) : ℤ) = (((i 3).val : ℕ) : ℤ) := by
        rw [start_3, window_3]; have := h.2.2.2; omega
      exact e

/-- The window scatter at start o, read at one element: a slot inside the window o … o + 15999 holds the body applied
    to the operand's element and the update's element of frame slot − o; a slot outside keeps the operand's. -/
theorem scatter_at {α : Type} {w : Nat} (f : α → α → α) (x : S8x2x16001x8.Idx → α) (idx : IVec S1 w)
    (upd : S8x2x16000x8.Idx → α) (o : ℕ) (hidx : ∀ k, (idx k).toInt = (o : ℤ))
    (b : Fin 8) (c : Fin 2) (n : Fin 16001) (h : Fin 8) :
    Host.scatter scatter_S8x2x16001x8_S1_S8x2x16000x8_0123_n_2_0 f x idx upd (ix4 b c n h) =
      if hn : o ≤ n.val ∧ n.val - o < 16000 then f (x (ix4 b c n h)) (upd (ix4 b c ⟨n.val - o, hn.2⟩ h))
      else x (ix4 b c n h) := by
  by_cases hn : o ≤ n.val ∧ n.val - o < 16000
  · rw [dif_pos hn]
    refine scatter_apply_of_hit_once _ f x idx upd _ (ix4 b c ⟨n.val - o, hn.2⟩ h) ?_ ?_
    · refine (lands_iff idx o hidx _ _).2 ⟨rfl, rfl, ?_, rfl⟩
      show o + (n.val - o) = n.val
      omega
    · intro j hj
      obtain ⟨h0, h1, h2, h3⟩ := (lands_iff idx o hidx _ _).1 hj
      have h0' : (j 0).val = b.val := h0
      have h1' : (j 1).val = c.val := h1
      have h2' : o + (j 2).val = n.val := h2
      have h3' : (j 3).val = h.val := h3
      refine (eq_ix4 j).trans ?_
      have e0 : j 0 = b := Fin.ext h0'
      have e1 : j 1 = c := Fin.ext h1'
      have e2 : j 2 = (⟨n.val - o, hn.2⟩ : Fin 16000) := Fin.ext (by show (j 2).val = n.val - o; omega)
      have e3 : j 3 = h := Fin.ext h3'
      rw [e0, e1, e2, e3]
      rfl
  · rw [dif_neg hn]
    refine scatter_apply_of_not_hit _ f x idx upd _ fun j hj => hn ?_
    obtain ⟨_, _, h2, _⟩ := (lands_iff idx o hidx _ _).1 hj
    have h2' : o + (j 2).val = n.val := h2
    have hj2 : (j 2).val < 16000 := (j 2).isLt
    constructor <;> omega

/-- The two window updates of the kernel's host tail: the first halves of all frames added into slots 0 … 15999 of a
    zero array, then the second halves added into slots 1 … 16000, give the overlap-and-add of the frames. -/
theorem scatter_pair (e : FVec Ideal S8x2x16000x16 .f32) :
    Host.scatter scatter_S8x2x16001x8_S1_S8x2x16000x8_0123_n_2_0 (FloatOps.addf (F := Ideal) (φ := .f32))
      (Host.scatter scatter_S8x2x16001x8_S1_S8x2x16000x8_0123_n_2_0 (FloatOps.addf (F := Ideal) (φ := .f32))
        (broadcastInDim S8x2x16001x8 ![] bcast_S_S8x2x16001x8 (constant (F := Ideal) S_ .f32 0x00000000#32))
        (broadcastInDim S1 ![] bcast_S_S1 (constantI S_ 32 0#32))
        (extractStridedSlice S8x2x16000x8 ![0, 0, 0, 0] e slices_S8x2x16000x16_S8x2x16000x8_0_0_0_0))
      (broadcastInDim S1 ![] bcast_S_S1 (constantI S_ 32 1#32))
      (extractStridedSlice S8x2x16000x8 ![0, 0, 0, 8] e slices_S8x2x16000x16_S8x2x16000x8_0_0_0_8)
    = overlap e := by
  funext i
  obtain ⟨b, c, n, h, rfl⟩ : ∃ (b : Fin 8) (c : Fin 2) (n : Fin 16001) (h : Fin 8), i = ix4 b c n h :=
    ⟨i 0, i 1, i 2, i 3, eq_ix4 i⟩
  -- the two scatter indices are the constants 0 and 1
  have hidx0 : ∀ k, ((broadcastInDim S1 ![] bcast_S_S1 (constantI S_ 32 0#32)) k).toInt = ((0 : ℕ) : ℤ) :=
    fun _ => by show (0#32 : BitVec 32).toInt = _; decide
  have hidx1 : ∀ k, ((broadcastInDim S1 ![] bcast_S_S1 (constantI S_ 32 1#32)) k).toInt = ((1 : ℕ) : ℤ) :=
    fun _ => by show (1#32 : BitVec 32).toInt = _; decide
  rw [scatter_at _ _ _ _ 1 hidx1, scatter_at _ _ _ _ 0 hidx0]
  -- after the first update slot n holds the first half of frame n (nothing at n = 16000)
  have hfirst : (if hn : 0 ≤ n.val ∧ n.val - 0 < 16000 then
        FloatOps.addf (F := Ideal) (φ := .f32)
          (broadcastInDim S8x2x16001x8 ![] bcast_S_S8x2x16001x8 (constant (F := Ideal) S_ .f32 0x00000000#32) (ix4 b c n h))
          (extractStridedSlice S8x2x16000x8 ![0, 0, 0, 0] e slices_S8x2x16000x16_S8x2x16000x8_0_0_0_0
            (ix4 b c ⟨n.val - 0, hn.2⟩ h))
      else broadcastInDim S8x2x16001x8 ![] bcast_S_S8x2x16001x8 (constant (F := Ideal) S_ .f32 0x00000000#32) (ix4 b c n h))
      = at4 e b c n.val h.val := by
    by_cases hn : 0 ≤ n.val ∧ n.val - 0 < 16000
    · rw [dif_pos hn]
      show Ideal.ofBits .f32 0x00000000#32 + e _ = _
      rw [Ideal.ofBits_zero_f32, zero_add]
      refine (at4_eq e b c n.val h.val _ ?_ ?_ ?_ ?_).symm
      · exact Fin.ext (Nat.zero_add _)
      · exact Fin.ext (Nat.zero_add _)
      · show 0 + (n.val - 0) = n.val
        omega
      · exact Nat.zero_add _
    · rw [dif_neg hn]
      show Ideal.ofBits .f32 0x00000000#32 = _
      rw [Ideal.ofBits_zero_f32, at4_of_ge e b c n.val h.val (by omega)]
  rw [hfirst]
  show _ = at4 e b c n.val h.val + (if 1 ≤ n.val then at4 e b c (n.val - 1) (8 + h.val) else 0)
  have hn16 : n.val < 16001 := n.isLt
  by_cases hn : 1 ≤ n.val
  · rw [dif_pos ⟨hn, by omega⟩, if_pos hn]
    show at4 e b c n.val h.val + e _ = _
    refine congrArg (at4 e b c n.val h.val + ·) ?_
    refine (at4_eq e b c (n.val - 1) (8 + h.val) _ ?_ ?_ ?_ ?_).symm
    · exact Fin.ext (Nat.zero_add _)
    · exact Fin.ext (Nat.zero_add _)
    · show 0 + (n.val - 1) = n.val - 1
      omega
    · rfl
  · rw [dif_neg (fun hh => hn hh.1), if_neg hn, add_zero]

end Cert.OverlapAdd.KernelTail

end
-- ==== Proof.KernelValue.lean ====
import proofs.«144685_j52664888983802_1_alg».proof.Proof.Gen.KernelIdeal.Frame
import proofs.«144685_j52664888983802_1_alg».proof.Proof.KernelProduct
import proofs.«144685_j52664888983802_1_alg».proof.Proof.KernelScatter
import proofs.«144685_j52664888983802_1_alg».proof.Proof.Spec
import Idealize.ShloMosaic.Lib.StableHlo.Run
import Idealize.ShloMosaic.Lib.Pipeline.Value
import Idealize.ShloMosaic.Lib.ValueIdx

set_option maxRecDepth 16384

noncomputable section

namespace Cert.OverlapAdd.KernelValue

open Idealize.ShloMosaic Idealize.ShloMosaic.ValueIdx Idealize.ShloMosaic.TcCoe Idealize.SL.Sem
open Cert.KernelIdeal Cert.KernelIdeal.Gen Cert.OverlapAdd Cert.OverlapAdd.KernelProduct

variable (m : (ℓ : Loc nD τ sig) → Buf (Elt Ideal) ℓ) (ρ : Dev nD → PrngReg)

/-- The signal and the basis as launched. -/
abbrev sigArr (c : Dev nD) : S8x2x16000x512.Idx → EReal := m ((c.tc : Thread nD τ).loc main_arg0)
abbrev basArr (c : Dev nD) : S16x512.Idx → EReal := m ((c.tc : Thread nD τ).loc main_arg1)

/-- The region finds the signal flattened to 256000 rows. -/
theorem rows_eq (c : Dev nD) :
    rowsArr m c = shapeCast S256000x512 (sigArr m c) shapeCasts_S8x2x16000x512_S256000x512 := by
  show StableHlo.after hostOps0 (fun b => m (c, b)) (Proc.devRef .tc main_v0) = _
  after_results
  rfl

theorem basis_eq (c : Dev nD) : basisArr m c = basArr m c := V_main_arg1 m c

/-- The product array after the region. -/
abbrev prodArr (c : Dev nD) : S256000x16.Idx → EReal := (dats m 0 c).arrAt 2 cfg0.N

/-- The host lines after the region, read back: the result is the two window updates of the re-laid product. -/
theorem tail_eq (c : Dev nD) :
    (Pipeline.afterTail₀ cfgs (dats m) 0 (V0 m) [hostOps1] c main_v10 : S8x2x128008.Idx → EReal)
      = shapeCast S8x2x128008 (overlap (shapeCast S8x2x16000x16 (prodArr m c) shapeCasts_S256000x16_S8x2x16000x16))
          shapeCasts_S8x2x16001x8_S8x2x128008 := by
  unfold Pipeline.afterTail₀
  show StableHlo.after hostOps1 _ (Proc.devRef .tc main_v10) = _
  after_results
  have hw : Pipeline.withArrays (cfgs 0).spec c (V0 m c) (fun w => (dats m 0 c).arrAt w (cfgs 0).N)
      (Proc.tc.devRef main_v1) = prodArr m c :=
    Pipeline.withArrays_arr spec0 launch0.win.arr_inj c _ _ 2
  rw [hw]
  exact congrArg (fun z => shapeCast S8x2x128008 z shapeCasts_S8x2x16001x8_S8x2x128008)
    (KernelTail.scatter_pair (shapeCast S8x2x16000x16 (prodArr m c) shapeCasts_S256000x16_S8x2x16000x16))

/-- Row r = (2·b + c)·16000 + n of the flattened signal is frame (b, c, n). -/
theorem rows_apply (c : Dev nD) (i : S8x2x16000x16.Idx) (k : Fin 512) :
    rowsArr m c (ix2 (⟨((i 0).val * 2 + (i 1).val) * 16000 + (i 2).val, by
        have h0 : (i 0).val < 8 := (i 0).isLt; have h1 : (i 1).val < 2 := (i 1).isLt
        have h2 : (i 2).val < 16000 := (i 2).isLt; omega⟩ : Fin 256000) k)
      = sigArr m c (ix4 (i 0) (i 1) (i 2) k) := by
  rw [rows_eq]
  refine shapeCast_apply (sigArr m c) shapeCasts_S8x2x16000x512_S256000x512 _ (ix4 (i 0) (i 1) (i 2) k) ?_
  rewrite [Shape.rowMajor_val_four, Shape.rowMajor_val_two]
  show ((((i 0).val * 2 + (i 1).val) * 16000 + (i 2).val) * 512 + k.val
    = (((i 0).val * 2 + (i 1).val) * 16000 + (i 2).val) * 512 + k.val)
  rfl

/-- The product array, re-laid as batch × channel × frame × coordinate, is the projected frames. -/
theorem frames_eq (c : Dev nD) :
    shapeCast S8x2x16000x16 (prodArr m c) shapeCasts_S256000x16_S8x2x16000x16
      = frames (sigArr m c) (basArr m c) := by
  funext i
  have hr : ((i 0).val * 2 + (i 1).val) * 16000 + (i 2).val < 256000 := by
    have h0 : (i 0).val < 8 := (i 0).isLt; have h1 : (i 1).val < 2 := (i 1).isLt
    have h2 : (i 2).val < 16000 := (i 2).isLt; omega
  rw [shapeCast_apply (prodArr m c) shapeCasts_S256000x16_S8x2x16000x16 i
    (ix2 (⟨((i 0).val * 2 + (i 1).val) * 16000 + (i 2).val, hr⟩ : Fin 256000) (i 3)) (by
      rewrite [Shape.rowMajor_val_two, Shape.rowMajor_val_four]
      show (((i 0).val * 2 + (i 1).val) * 16000 + (i 2).val) * 16 + (i 3).val
        = (((i 0).val * 2 + (i 1).val) * 16000 + (i 2).val) * 16 + (i 3).val
      rfl)]
  show prodArr m c _ = _
  unfold prodArr
  rw [product_array m c]
  unfold frames
  refine Finset.sum_congr rfl fun k _ => ?_
  rw [basis_eq]
  exact congrArg (· * basArr m c (ix2 (i 3) k)) (rows_apply m c i k)

/-- What the kernel leaves in its result buffer. -/
theorem result_eq (c : Dev nD) :
    (Pipeline.afterTail₀ cfgs (dats m) 0 (V0 m) [hostOps1] c main_v10 : S8x2x128008.Idx → EReal)
      = result (sigArr m c) (basArr m c) := by
  rw [tail_eq, frames_eq]
  funext i
  unfold result
  refine shapeCast_apply _ shapeCasts_S8x2x16001x8_S8x2x128008 i _ ?_
  rewrite [Shape.rowMajor_val_four, Shape.rowMajor_val_three]
  have h2 : (i 2).val < 128008 := (i 2).isLt
  show (((i 0).val * 2 + (i 1).val) * 16001 + (i 2).val / 8) * 8 + (i 2).val % 8
    = ((i 0).val * 2 + (i 1).val) * 128008 + (i 2).val
  omega

/-- The kernel's run with its result named: every weakly fair execution ends with the result buffer at the
    overlap-and-add of the projected frames of the launched signal and basis, both of which end unchanged. -/
theorem run :
    θ_run defs (onTc (τ := τ) (main (F := Ideal))) ⟨m, fun _ => 0, ρ⟩ (fun r => ∀ c : Dev nD,
      r.2.mem ((c.tc : Thread nD τ).loc main_v10) = result (sigArr m c) (basArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v10 (Pipeline.mem_restRefs_of main_v10 (by decide) (by decide))).trans (result_eq m c),
     ((h c).2 main_arg0 (Pipeline.mem_restRefs_of main_arg0 (by decide) (by decide))).trans (W_main_arg0 m (dats m) c),
     ((h c).1 1).trans (((dats m 0 c).arrAt_in 1 rfl _).trans ((A_eq m c 1).trans (V_main_arg1 m c)))⟩)
    (run_main m ρ)

end Cert.OverlapAdd.KernelValue

end
-- ==== Proof.RefScatter.lean ====
import proofs.«144685_j52664888983802_1_alg».proof.Proof.Gen.ReferenceIdeal.Read
import proofs.«144685_j52664888983802_1_alg».proof.Proof.Spec
import Idealize.ShloMosaic.PureOps.Ideal.Laws
import Idealize.ShloMosaic.Lib.ValueIdx
import Idealize.ShloMosaic.Lib.StableHlo.Predicate

noncomputable section

namespace Cert.OverlapAdd.RefTail

open Idealize.ShloMosaic Idealize.ShloMosaic.ValueIdx Cert.ReferenceIdeal Cert.ReferenceIdeal.Read Cert.OverlapAdd

/-! ## The index array

Position e of the 32000 scatter indices is ⌊e/2⌋ · 1 + (e mod 2): frame ⌊e/2⌋, plus one for a second half. It is a small
natural number, so the signed test "index < 0" fails and the wrap-around by 16001 is never taken. -/

/-- The word at position e of the index array: the slot ⌊e/2⌋ + (e mod 2), built from two counters. -/
theorem v11_apply (e : ℕ) (he : e < 32000) :
    val_main_v11 (F := Ideal) (ix1 (⟨e, he⟩ : Fin 32000)) = BitVec.ofNat 32 (e / 2 + e % 2) := by
  rw [val_main_v11_apply, val_main_v10_apply, val_main_v8_apply, val_main_v9_apply, val_main_v5_apply,
    val_main_v3_apply, val_main_v4_apply, val_main_v7_apply, val_main_v6_apply, val_main_v2_apply, val_main_c_apply]
  show IntOp.addi (IntOp.muli (BitVec.ofNat 32 (e / 2)) 1#32) (BitVec.ofNat 32 (e % 2)) = _
  unfold IntOp.addi IntOp.muli
  rw [BitVec.mul_one, ← BitVec.ofNat_add]

/-- The slot is never negative, so the wrap-around of negative indices leaves it alone. -/
theorem v17_apply (e : ℕ) (he : e < 32000) :
    val_main_v17 (F := Ideal) (ix1 (⟨e, he⟩ : Fin 32000)) = BitVec.ofNat 32 (e / 2 + e % 2) := by
  rw [val_main_v17_apply, val_main_v14_apply, val_main_v13_apply, val_main_c_0_apply, v11_apply]
  have hz : IntOp.cmpi .slt (BitVec.ofNat 32 (e / 2 + e % 2)) 0#32 = 0#1 := by
    apply eq_zero_of_ne_one
    intro h1
    have := (StableHlo.Predicate.slt_ofNat_iff (e / 2 + e % 2) 0 (by omega) (by omega)).1 h1
    omega
  rw [hz, select_zero]

/-- The index array proper: one column, read at row e. -/
theorem v18_apply (e : ℕ) (he : e < 32000) :
    val_main_v18 (F := Ideal) (ix2 (⟨e, he⟩ : Fin 32000) (0 : Fin 1)) = BitVec.ofNat 32 (e / 2 + e % 2) := by
  rw [val_main_v18_apply]
  exact v17_apply e he

/-! ## Where an update lands

The operand's axes 0 and 2 are window axes (they take the update's own coordinates 0 and 2, from start 0); axis 1 is
the one scattered axis: its coordinate is the index read at the update's row, with window coordinate 0. -/

/-- The scatter's dimension numbers: operand 16 × 16001 × 8, one index per update row, updates 16 × 32000 × 8. -/
abbrev dsc := scatter_S16x16001x8_S32000x1_S16x32000x8_02_1_1_1

/-- The start index of update j has one component, read at row j 1 of the index array. -/
theorem siIdx_eq (j : S16x32000x8.Idx) (h1 : (j 1).val < 32000) (c : Fin dsc.scatterDimsToOperandDims.length) :
    dsc.siIdx j c = ix2 (⟨(j 1).val, h1⟩ : Fin 32000) (0 : Fin 1) := by
  funext b
  match b with
  | ⟨0, _⟩ => rfl
  | ⟨1, _⟩ =>
    apply Fin.ext
    have hc : c.val < 1 := c.isLt
    show c.val = 0
    omega

/-- The start of the window on the three operand axes: zero on the window axes, the index (read signed) on axis 1. -/
theorem start0 (j : S16x32000x8.Idx) (idx : IVec S32000x1 32) : dsc.start j idx 0 = 0 := rfl
theorem start2 (j : S16x32000x8.Idx) (idx : IVec S32000x1 32) : dsc.start j idx 2 = 0 := rfl
theorem start1 (j : S16x32000x8.Idx) (h1 : (j 1).val < 32000) (idx : IVec S32000x1 32) :
    dsc.start j idx 1 = (idx (ix2 (⟨(j 1).val, h1⟩ : Fin 32000) (0 : Fin 1))).toInt := by
  unfold ScatterDims.start
  rw [dif_pos (show (1 : Fin S16x16001x8.rank) ∈ dsc.scatterDimsToOperandDims by decide), siIdx_eq j h1]
/-- The window coordinate on the three operand axes: the update's own coordinate on the window axes, zero on axis 1. -/
theorem window0 (j : S16x32000x8.Idx) : dsc.window j 0 = (j 0).val := rfl
theorem window1 (j : S16x32000x8.Idx) : dsc.window j 1 = 0 := rfl
theorem window2 (j : S16x32000x8.Idx) : dsc.window j 2 = (j 2).val := rfl

/-- With the reference's index array the start on axis 1 is the slot ⌊j₁/2⌋ + (j₁ mod 2). -/
theorem start1_v18 (j : S16x32000x8.Idx) (h1 : (j 1).val < 32000) :
    dsc.start j (val_main_v18 (F := Ideal)) 1 = (((j 1).val / 2 + (j 1).val % 2 : ℕ) : Int) := by
  rw [start1 j h1, v18_apply, StableHlo.Predicate.toInt_ofNat_small _ (by omega)]

/-- The slot half-frame e lands on. -/
def slotOf (e : ℕ) (he : e < 32000) : Fin 16001 := ⟨e / 2 + e % 2, by omega⟩

/-- Update index j lands at slot ⌊j₁/2⌋ + (j₁ mod 2) of its row, in its own column. -/
theorem resultIdx_eq (j : S16x32000x8.Idx) (h0 : (j 0).val < 16) (h1 : (j 1).val < 32000) (h2 : (j 2).val < 8) :
    dsc.resultIdx? j (val_main_v18 (F := Ideal))
      = some (ix3 (⟨(j 0).val, h0⟩ : Fin 16) (slotOf (j 1).val h1) (⟨(j 2).val, h2⟩ : Fin 8)) := by
  unfold ScatterDims.resultIdx?
  have hall : ∀ a, 0 ≤ dsc.start j (val_main_v18 (F := Ideal)) a + dsc.window j a
      ∧ dsc.start j (val_main_v18 (F := Ideal)) a + dsc.window j a < S16x16001x8.size a := by
    intro a
    match a with
    | ⟨0, _⟩ =>
      rw [show (⟨0, _⟩ : Fin S16x16001x8.rank) = 0 from rfl, start0, window0]
      show (0 : Int) ≤ 0 + ((j 0).val : Int) ∧ (0 : Int) + ((j 0).val : Int) < ((16 : Nat) : Int)
      omega
    | ⟨1, _⟩ =>
      rw [show (⟨1, _⟩ : Fin S16x16001x8.rank) = 1 from rfl, start1_v18 j h1, window1]
      show (0 : Int) ≤ (((j 1).val / 2 + (j 1).val % 2 : ℕ) : Int) + ((0 : Nat) : Int)
        ∧ (((j 1).val / 2 + (j 1).val % 2 : ℕ) : Int) + ((0 : Nat) : Int) < ((16001 : Nat) : Int)
      omega
    | ⟨2, _⟩ =>
      rw [show (⟨2, _⟩ : Fin S16x16001x8.rank) = 2 from rfl, start2, window2]
      show (0 : Int) ≤ 0 + ((j 2).val : Int) ∧ (0 : Int) + ((j 2).val : Int) < ((8 : Nat) : Int)
      omega
  rw [dif_pos hall]
  refine congrArg some (funext fun a => Fin.ext ?_)
  match a with
  | ⟨0, _⟩ =>
    show (dsc.start j (val_main_v18 (F := Ideal)) 0 + dsc.window j 0).toNat = (j 0).val
    rw [start0, window0]; omega
  | ⟨1, _⟩ =>
    show (dsc.start j (val_main_v18 (F := Ideal)) 1 + dsc.window j 1).toNat = (j 1).val / 2 + (j 1).val % 2
    rw [start1_v18 j h1, window1]; omega
  | ⟨2, _⟩ =>
    show (dsc.start j (val_main_v18 (F := Ideal)) 2 + dsc.window j 2).toNat = (j 2).val
    rw [start2, window2]; omega

/-! ## The updates that land on one slot -/

/-- Two rank-3 indices with the same coordinates are equal. -/
theorem idx3_ext {n0 n1 n2 : ℕ} (i j : (⟨3, ![n0, n1, n2]⟩ : Shape).Idx)
    (h0 : (i 0).val = (j 0).val) (h1 : (i 1).val = (j 1).val) (h2 : (i 2).val = (j 2).val) : i = j := by
  funext a
  match a with
  | ⟨0, _⟩ => exact Fin.ext h0
  | ⟨1, _⟩ => exact Fin.ext h1
  | ⟨2, _⟩ => exact Fin.ext h2

/-- Update index j lands on operand index i exactly when rows and columns agree and j's half-frame has i's slot. -/
theorem lands_iff (i : S16x16001x8.Idx) (j : S16x32000x8.Idx) :
    dsc.resultIdx? j (val_main_v18 (F := Ideal)) = some i ↔
      (j 0).val = (i 0).val ∧ (j 1).val / 2 + (j 1).val % 2 = (i 1).val ∧ (j 2).val = (i 2).val := by
  rw [resultIdx_eq j (j 0).isLt (j 1).isLt (j 2).isLt, Option.some.injEq]
  constructor
  · intro h; subst h; exact ⟨rfl, rfl, rfl⟩
  · rintro ⟨h0, h1, h2⟩; exact idx3_ext _ _ h0 h1 h2

/-- The same, at an operand index given by its coordinates. -/
theorem lands_ix3_iff (B : Fin 16) (n : Fin 16001) (h : Fin 8) (j : S16x32000x8.Idx) :
    dsc.resultIdx? j (val_main_v18 (F := Ideal)) = some (ix3 B n h) ↔
      (j 0).val = B.val ∧ (j 1).val / 2 + (j 1).val % 2 = n.val ∧ (j 2).val = h.val :=
  lands_iff (ix3 B n h) j

/-- The updates landing on slot n of a row are the half-frames 2n (when n < 16000) and 2n − 1 (when n ≥ 1). -/
theorem sum_landing (f : S16x32000x8.Idx → EReal) (B : Fin 16) (n : Fin 16001) (h : Fin 8)
    [DecidablePred fun j : S16x32000x8.Idx => dsc.resultIdx? j (val_main_v18 (F := Ideal)) = some (ix3 B n h)] :
    ∑ j ∈ Finset.univ.filter (fun j : S16x32000x8.Idx => dsc.resultIdx? j (val_main_v18 (F := Ideal)) = some (ix3 B n h)), f j
      = (if hA : n.val < 16000 then f (ix3 B (⟨2 * n.val, by omega⟩ : Fin 32000) h) else 0)
        + (if hB : 1 ≤ n.val then f (ix3 B (⟨2 * n.val - 1, by have := n.isLt; omega⟩ : Fin 32000) h) else 0) := by
  have hn : n.val < 16001 := n.isLt
  by_cases hA : n.val < 16000
  · by_cases hB : 1 ≤ n.val
    · rw [dif_pos hA, dif_pos hB]
      have hS : Finset.univ.filter (fun j : S16x32000x8.Idx => dsc.resultIdx? j (val_main_v18 (F := Ideal)) = some (ix3 B n h))
          = {ix3 B (⟨2 * n.val, by omega⟩ : Fin 32000) h, ix3 B (⟨2 * n.val - 1, by omega⟩ : Fin 32000) h} := by
        ext j
        have j1 : (j 1).val < 32000 := (j 1).isLt
        rw [Finset.mem_filter, Finset.mem_insert, Finset.mem_singleton, lands_ix3_iff]
        constructor
        · rintro ⟨_, e0, e1, e2⟩
          by_cases hev : (j 1).val = 2 * n.val
          · left; exact idx3_ext _ _ e0 hev e2
          · right; exact idx3_ext _ _ e0 (by show (j 1).val = 2 * n.val - 1; omega) e2
        · rintro (rfl | rfl)
          · exact ⟨Finset.mem_univ _, rfl, by show (2 * n.val) / 2 + (2 * n.val) % 2 = n.val; omega, rfl⟩
          · exact ⟨Finset.mem_univ _, rfl, by show (2 * n.val - 1) / 2 + (2 * n.val - 1) % 2 = n.val; omega, rfl⟩
      have hne : (ix3 B (⟨2 * n.val, by omega⟩ : Fin 32000) h : S16x32000x8.Idx) ≠ ix3 B (⟨2 * n.val - 1, by omega⟩ : Fin 32000) h := by
        intro he
        have := congrArg (fun k : S16x32000x8.Idx => (k 1).val) he
        have : 2 * n.val = 2 * n.val - 1 := this
        omega
      rw [hS, Finset.sum_pair hne]
    · rw [dif_pos hA, dif_neg hB, add_zero]
      have hS : Finset.univ.filter (fun j : S16x32000x8.Idx => dsc.resultIdx? j (val_main_v18 (F := Ideal)) = some (ix3 B n h))
          = {ix3 B (⟨2 * n.val, by omega⟩ : Fin 32000) h} := by
        ext j
        have j1 : (j 1).val < 32000 := (j 1).isLt
        rw [Finset.mem_filter, Finset.mem_singleton, lands_ix3_iff]
        constructor
        · rintro ⟨_, e0, e1, e2⟩
          exact idx3_ext _ _ e0 (by show (j 1).val = 2 * n.val; omega) e2
        · rintro rfl
          exact ⟨Finset.mem_univ _, rfl, by show (2 * n.val) / 2 + (2 * n.val) % 2 = n.val; omega, rfl⟩
      rw [hS, Finset.sum_singleton]
  · have hB : 1 ≤ n.val := by omega
    rw [dif_neg hA, dif_pos hB, zero_add]
    have hS : Finset.univ.filter (fun j : S16x32000x8.Idx => dsc.resultIdx? j (val_main_v18 (F := Ideal)) = some (ix3 B n h))
        = {ix3 B (⟨2 * n.val - 1, by omega⟩ : Fin 32000) h} := by
      ext j
      have j1 : (j 1).val < 32000 := (j 1).isLt
      rw [Finset.mem_filter, Finset.mem_singleton, lands_ix3_iff]
      constructor
      · rintro ⟨_, e0, e1, e2⟩
        exact idx3_ext _ _ e0 (by show (j 1).val = 2 * n.val - 1; omega) e2
      · rintro rfl
        exact ⟨Finset.mem_univ _, rfl, by show (2 * n.val - 1) / 2 + (2 * n.val - 1) % 2 = n.val; omega, rfl⟩
    rw [hS, Finset.sum_singleton]

/-! ## The updates and the operand at an index -/

/-- Half-frame 2n of row B = 2b + c is the first half of frame n of (b, c). -/
theorem upd_even (x0 : (⟨S8x2x16000x512, .f32⟩ : BufTy).Contents (Elt Ideal))
    (x1 : (⟨S16x512, .f32⟩ : BufTy).Contents (Elt Ideal)) (B : Fin 16) (n : ℕ) (hA : n < 16000) (h : Fin 8) :
    val_main_v1 (F := Ideal) x0 x1 (ix3 B (⟨2 * n, by omega⟩ : Fin 32000) h)
      = at4 (val_main_v0 (F := Ideal) x0 x1) (⟨B.val / 2, by have := B.isLt; omega⟩ : Fin 8)
          (⟨B.val % 2, Nat.mod_lt _ (by decide)⟩ : Fin 2) n h.val := by
  have hB : B.val < 16 := B.isLt
  have hh : h.val < 8 := h.isLt
  rw [val_main_v1_apply]
  refine (at4_eq _ _ _ _ _ (idx_main_v1 _) (Fin.ext ?_) (Fin.ext ?_) ?_ ?_).symm
  · show ((B.val * 32000 + 2 * n) * 8 + h.val) / 512000 = B.val / 2; omega
  · show ((B.val * 32000 + 2 * n) * 8 + h.val) / 256000 % 2 = B.val % 2; omega
  · show ((B.val * 32000 + 2 * n) * 8 + h.val) / 16 % 16000 = n; omega
  · show ((B.val * 32000 + 2 * n) * 8 + h.val) % 16 = h.val; omega

/-- Half-frame 2n − 1 of row B = 2b + c is the second half of frame n − 1 of (b, c). -/
theorem upd_odd (x0 : (⟨S8x2x16000x512, .f32⟩ : BufTy).Contents (Elt Ideal))
    (x1 : (⟨S16x512, .f32⟩ : BufTy).Contents (Elt Ideal)) (B : Fin 16) (n : ℕ) (hB1 : 1 ≤ n) (hn : n < 16001) (h : Fin 8) :
    val_main_v1 (F := Ideal) x0 x1 (ix3 B (⟨2 * n - 1, by omega⟩ : Fin 32000) h)
      = at4 (val_main_v0 (F := Ideal) x0 x1) (⟨B.val / 2, by have := B.isLt; omega⟩ : Fin 8)
          (⟨B.val % 2, Nat.mod_lt _ (by decide)⟩ : Fin 2) (n - 1) (8 + h.val) := by
  have hB : B.val < 16 := B.isLt
  have hh : h.val < 8 := h.isLt
  rw [val_main_v1_apply]
  refine (at4_eq _ _ _ _ _ (idx_main_v1 _) (Fin.ext ?_) (Fin.ext ?_) ?_ ?_).symm
  · show ((B.val * 32000 + (2 * n - 1)) * 8 + h.val) / 512000 = B.val / 2; omega
  · show ((B.val * 32000 + (2 * n - 1)) * 8 + h.val) / 256000 % 2 = B.val % 2; omega
  · show ((B.val * 32000 + (2 * n - 1)) * 8 + h.val) / 16 % 16000 = n - 1; omega
  · show ((B.val * 32000 + (2 * n - 1)) * 8 + h.val) % 16 = 8 + h.val; omega

/-- The scatter's operand is the zero array. -/
theorem v12_apply (i : S16x16001x8.Idx) : val_main_v12 (F := Ideal) i = 0 := by
  rw [val_main_v12_apply, val_main_cst_apply]
  exact Ideal.ofBits_zero_f32

/-! ## The scatter at an index -/

/-- The reference's accumulating scatter, read at slot (B, n, h) with B = 2·b + c: the 32000 half-frames of row B land
    on slots ⌊j/2⌋ + (j mod 2), so slot n receives the first half of frame n and the second half of frame n − 1. -/
theorem scatter_add_apply (x0 : (⟨S8x2x16000x512, .f32⟩ : BufTy).Contents (Elt Ideal))
    (x1 : (⟨S16x512, .f32⟩ : BufTy).Contents (Elt Ideal)) (i : S16x16001x8.Idx) :
    val_main_v19 (F := Ideal) x0 x1 i
      = overlap (val_main_v0 (F := Ideal) x0 x1)
          (ix4 (⟨(i 0).val / 2, by have h : (i 0).val < 16 := (i 0).isLt; omega⟩ : Fin 8)
               (⟨(i 0).val % 2, Nat.mod_lt _ (by decide)⟩ : Fin 2) (i 1) (i 2)) := by
  obtain ⟨B, n, h, rfl⟩ : ∃ (B : Fin 16) (n : Fin 16001) (h : Fin 8), i = ix3 B n h := ⟨i 0, i 1, i 2, eq_ix3 i⟩
  have hn : n.val < 16001 := n.isLt
  unfold val_main_v19
  simp only [Host.scatterAdd, Ideal.hostScatterAdd_def]
  unfold Ideal.hostScatterAdd
  rw [sum_landing, v12_apply, zero_add]
  show _ = at4 (val_main_v0 (F := Ideal) x0 x1) (⟨B.val / 2, _⟩ : Fin 8) (⟨B.val % 2, _⟩ : Fin 2) n.val h.val
      + (if 1 ≤ n.val then
          at4 (val_main_v0 (F := Ideal) x0 x1) (⟨B.val / 2, _⟩ : Fin 8) (⟨B.val % 2, _⟩ : Fin 2) (n.val - 1) (8 + h.val)
        else 0)
  refine congrArg₂ (· + ·) ?_ ?_
  · by_cases hA : n.val < 16000
    · rw [dif_pos hA, upd_even x0 x1 B n.val hA h]
    · rw [dif_neg hA, at4_of_ge _ _ _ _ _ (by omega)]
  · by_cases hB : 1 ≤ n.val
    · rw [dif_pos hB, if_pos hB, upd_odd x0 x1 B n.val hB hn h]
    · rw [dif_neg hB, if_neg hB]

end Cert.OverlapAdd.RefTail

end
-- ==== Proof.RefValue.lean ====
import proofs.«144685_j52664888983802_1_alg».proof.Proof.Gen.ReferenceIdeal.Read
import proofs.«144685_j52664888983802_1_alg».proof.Proof.RefScatter
import proofs.«144685_j52664888983802_1_alg».proof.Proof.Spec
import Idealize.ShloMosaic.Lib.ValueIdx

noncomputable section

namespace Cert.OverlapAdd.RefValue

open Idealize.ShloMosaic Idealize.ShloMosaic.ValueIdx
open Cert.ReferenceIdeal Cert.ReferenceIdeal.Read Cert.OverlapAdd

/-- The reference's contraction over the sample axis is the projection of every frame on every basis row. -/
theorem frames_eq (x0 : (⟨S8x2x16000x512, .f32⟩ : BufTy).Contents (Elt Ideal))
    (x1 : (⟨S16x512, .f32⟩ : BufTy).Contents (Elt Ideal)) :
    val_main_v0 (F := Ideal) x0 x1 = frames x0 x1 := by
  funext i
  rw [val_main_v0_apply]
  unfold frames
  refine Finset.sum_congr rfl fun k _ => ?_
  have el : lidx_main_v0 i k = ix4 (i 0) (i 1) (i 2) k := funext fun a => Fin.ext (by
    match a with
    | ⟨0, _⟩ => rfl
    | ⟨1, _⟩ => rfl
    | ⟨2, _⟩ => rfl
    | ⟨3, _⟩ => rfl)
  have er : ridx_main_v0 i k = ix2 (i 3) k := funext fun a => Fin.ext (by
    match a with
    | ⟨0, _⟩ => rfl
    | ⟨1, _⟩ => rfl)
  rw [el, er]
  rfl

/-- The reference's result: row (b, c) of the output is row 2·b + c of the slot array, position p its slot p / 8 at
    p % 8. -/
theorem result_eq (x0 : (⟨S8x2x16000x512, .f32⟩ : BufTy).Contents (Elt Ideal))
    (x1 : (⟨S16x512, .f32⟩ : BufTy).Contents (Elt Ideal)) :
    val_main_v20 (F := Ideal) x0 x1 = result x0 x1 := by
  funext i
  rw [val_main_v20_apply, RefTail.scatter_add_apply, frames_eq]
  unfold result
  refine congrArg (overlap (frames x0 x1)) ?_
  have h0 : (i 0).val < 8 := (i 0).isLt
  have h1 : (i 1).val < 2 := (i 1).isLt
  have h2 : (i 2).val < 128008 := (i 2).isLt
  funext a
  apply Fin.ext
  match a with
  | ⟨0, _⟩ =>
    show (((i 0).val * 2 + (i 1).val) * 128008 + (i 2).val) / 128008 / 2 = (i 0).val
    omega
  | ⟨1, _⟩ =>
    show (((i 0).val * 2 + (i 1).val) * 128008 + (i 2).val) / 128008 % 2 = (i 1).val
    omega
  | ⟨2, _⟩ =>
    show (((i 0).val * 2 + (i 1).val) * 128008 + (i 2).val) / 8 % 16001 = (i 2).val / 8
    omega
  | ⟨3, _⟩ =>
    show (((i 0).val * 2 + (i 1).val) * 128008 + (i 2).val) % 8 = (i 2).val % 8
    omega

end Cert.OverlapAdd.RefValue

end
-- ==== Proof.lean ====
/-
  Overlap-and-add of projected frames: the kernel against its reference, over the extended reals.

  Both programs project every frame of the signal x[b, c, n, ·] (512 samples) on the 16 basis rows w[q, ·],
        e(b, c, n, q) = Σ_k x(b, c, n, k) · w(q, k),
  and then add the halves of neighbouring frames with a hop of 8: output slot n ∈ [0, 16000] holds at h < 8
        e(n, h) [n < 16000]  +  e(n − 1, 8 + h) [n ≥ 1],
  the 16001 slots of 8 numbers read as one row of 128008 (`Cert.OverlapAdd.result`, Proof/Spec.lean).

  The kernel computes e as 32 blocks of 8000 rows of the flattened signal, each block one matrix product with the
  transposed basis into a zero accumulator (Proof/KernelProduct.lean: a block's entry is the sum over k, and the
  blocks tile the rows), and then adds the first halves into slots 0 … 15999 and the second halves into slots
  1 … 16000 of a zero array by two window updates (Proof/KernelScatter.lean: each slot meets at most one update of
  each). The reference contracts the sample axis in one product, lists the 32000 half-frames of a row and scatters
  half-frame j onto slot ⌊j/2⌋ + (j mod 2), summing what collides (Proof/RefScatter.lean: slot n receives half-frames
  2n and 2n − 1, where they exist). The two results are the same sums; only the order of the two summands of a slot
  differs, and addition of extended reals is commutative, so no finiteness is used.

  The frames of the kernel and of its idealization are the generated ones; the reference's is its generated run.
  The idealization rewrote nothing, so there is nothing to preserve.
-/
import proofs.«144685_j52664888983802_1_alg».proof.Defs
import proofs.«144685_j52664888983802_1_alg».proof.Proof.Gen.Kernel
import proofs.«144685_j52664888983802_1_alg».proof.Proof.Gen.Kernel.Skeleton
import proofs.«144685_j52664888983802_1_alg».proof.Proof.Gen.Kernel.Launch
import proofs.«144685_j52664888983802_1_alg».proof.Proof.Gen.Kernel.Points
import proofs.«144685_j52664888983802_1_alg».proof.Proof.Gen.Kernel.Frame
import proofs.«144685_j52664888983802_1_alg».proof.Proof.Gen.KernelIdeal
import proofs.«144685_j52664888983802_1_alg».proof.Proof.Gen.KernelIdeal.Skeleton
import proofs.«144685_j52664888983802_1_alg».proof.Proof.Gen.KernelIdeal.Launch
import proofs.«144685_j52664888983802_1_alg».proof.Proof.Gen.KernelIdeal.Points
import proofs.«144685_j52664888983802_1_alg».proof.Proof.Gen.KernelIdeal.Frame
import proofs.«144685_j52664888983802_1_alg».proof.Proof.Gen.ReferenceIdeal
import proofs.«144685_j52664888983802_1_alg».proof.Proof.Gen.ReferenceIdeal.Run
import proofs.«144685_j52664888983802_1_alg».proof.Proof.Gen.ReferenceIdeal.Read
import proofs.«144685_j52664888983802_1_alg».proof.Proof.Gen.Pre_finite_inputs
import proofs.«144685_j52664888983802_1_alg».proof.Proof.KernelValue
import proofs.«144685_j52664888983802_1_alg».proof.Proof.RefValue
import Idealize.ShloMosaic.Adequacy
import Idealize.ShloMosaic.Init

noncomputable section

namespace Cert.Proof

open Idealize.ShloMosaic Idealize.SL.Sem

/-- The kernel as printed runs and keeps its arguments. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the signal and the basis, both programs end with the overlap-and-add of the
    projected frames in their result buffers. -/
theorem algebraic : Cert.algebraic_KernelIdeal_ReferenceIdeal := by
  intro m ρ m' ρ' _ hagree
  refine ⟨fun c => Cert.OverlapAdd.result (Cert.OverlapAdd.KernelValue.sigArr m c) (Cert.OverlapAdd.KernelValue.basArr m c),
    Cert.OverlapAdd.KernelValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v20_eq, Cert.OverlapAdd.RefValue.result_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
